-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S50257x1024 : Shape := ⟨2, ![50257, 1024]⟩
abbrev S1024 : Shape := ⟨1, ![1024]⟩
abbrev S512 : Shape := ⟨1, ![512]⟩
abbrev S512x20 : Shape := ⟨2, ![512, 20]⟩
abbrev S20 : Shape := ⟨1, ![20]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x20 : S_.BroadcastsInDim S512x20 (![] : Fin 0 → Fin S512x20.rank)
  reducesTo_S512x20_S_d0_1 : S512x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg0 : IVec S1024x512 32) (main_v32 : IVec S_ 1) (main_c_12 : IVec S_ 32) : IVec S_ 1 :=
  let main_v33 : IVec S1024x512 32 := broadcastInDim S1024x512 ![] bcast_S_S1024x512 main_c_12
  let main_v34 : IVec S1024x512 1 := cmpi .slt main_arg0 main_v33
  let main_c_13 : IVec S_ 1 := constantI S_ 1 1#1
  let main_v35 : IVec S_ 1 := (fun x v => Host.reduce IntOp.andi x v reducesTo_S1024x512_S_d0_1 h_S_) main_v34 main_c_13
  let main_v36 : IVec S_ 1 := andi main_v32 main_v35
  main_v36

def fn_part1 {F : FTy → Type} [FloatOps F] (main_arg0 : IVec S1024x512 32) (main_arg5 : FVec F S512x20 .f32) (main_arg6 : FVec F S20 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x20 .f32 := Host.absf main_arg5
  let main_cst_6 : FVec F S_ .f32 := constant S_ .f32 0x7F800000#32
  let main_v20 : FVec F S512x20 .f32 := broadcastInDim S512x20 ![] bcast_S_S512x20 main_cst_6
  let main_v21 : IVec S512x20 1 := cmpf .olt main_v19 main_v20
  let main_c_7 : IVec S_ 1 := constantI S_ 1 1#1
  let main_v22 : IVec S_ 1 := (fun x v => Host.reduce IntOp.andi x v reducesTo_S512x20_S_d0_1 h_S_) main_v21 main_c_7
  let main_v23 : IVec S_ 1 := andi main_v18 main_v22
  let main_v24 : FVec F S20 .f32 := Host.absf main_arg6
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_c_10 : IVec S_ 32 := constantI S_ 32 0#32
  let main_v29 : IVec S1024x512 32 := broadcastInDim S1024x512 ![] bcast_S_S1024x512 main_c_10
  let main_v30 : IVec S1024x512 1 := cmpi .sge main_arg0 main_v29
  let main_c_11 : IVec S_ 1 := constantI S_ 1 1#1
  let main_v31 : IVec S_ 1 := (fun x v => Host.reduce IntOp.andi x v reducesTo_S1024x512_S_d0_1 h_S_) main_v30 main_c_11
  let main_v32 : IVec S_ 1 := andi main_v28 main_v31
  let main_c_12 : IVec S_ 32 := constantI S_ 32 50257#32
  fn_part2 (F := F) main_arg0 main_v32 main_c_12

def fn {F : FTy → Type} [FloatOps F] (main_arg0 : IVec S1024x512 32) (main_arg1 : FVec F S50257x1024 .f32) (main_arg2 : FVec F S1024 .f32) (main_arg3 : FVec F S1024x512 .f32) (main_arg4 : FVec F S512 .f32) (main_arg5 : FVec F S512x20 .f32) (main_arg6 : FVec F S20 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg5 main_arg6 main_v13 main_v16
-- ==== Kernel.lean ====
abbrev S1024x512 : Shape := ⟨2, ![1024, 512]⟩
abbrev S50257x1024 : Shape := ⟨2, ![50257, 1024]⟩
abbrev S1024 : Shape := ⟨1, ![1024]⟩
abbrev S512 : Shape := ⟨1, ![512]⟩
abbrev S512x20 : Shape := ⟨2, ![512, 20]⟩
abbrev S20 : Shape := ⟨1, ![20]⟩
abbrev S1024x1 : Shape := ⟨2, ![1024, 1]⟩
abbrev S_ : Shape := ⟨0, ![]⟩
abbrev S524288 : Shape := ⟨1, ![524288]⟩
abbrev S52428800 : Shape := ⟨1, ![52428800]⟩
abbrev S524288x1 : Shape := ⟨2, ![524288, 1]⟩
abbrev S1024x51200 : Shape := ⟨2, ![1024, 51200]⟩
abbrev S51200x1024 : Shape := ⟨2, ![51200, 1024]⟩
abbrev S1x1024 : Shape := ⟨2, ![1, 1024]⟩
abbrev S1x512 : Shape := ⟨2, ![1, 512]⟩
abbrev S1x20 : Shape := ⟨2, ![1, 20]⟩
abbrev S1024x20 : Shape := ⟨2, ![1024, 20]⟩
abbrev S512x2048 : Shape := ⟨2, ![512, 2048]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 39
  | .vmem => 12
  | .smem => 0
  | _ => 0

abbrev bufTy : (tb : Table) → Fin (tcTables nBuf tb) → BufTy
  | .hbm, ⟨0, _⟩ => ⟨S1024x512, .i32⟩
  | .hbm, ⟨1, _⟩ => ⟨S50257x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x20, .f32⟩
  | .hbm, ⟨6, _⟩ => ⟨S20, .f32⟩
  | .hbm, ⟨7, _⟩ => ⟨S1024, .i32⟩
  | .hbm, ⟨8, _⟩ => ⟨S1024x1, .i32⟩
  | .hbm, ⟨9, _⟩ => ⟨S_, .i32⟩
  | .hbm, ⟨10, _⟩ => ⟨S1024x1, .i32⟩
  | .hbm, ⟨11, _⟩ => ⟨S1024x1, .i32⟩
  | .hbm, ⟨12, _⟩ => ⟨S1024x512, .i32⟩
  | .hbm, ⟨13, _⟩ => ⟨S1024x512, .i32⟩
  | .hbm, ⟨14, _⟩ => ⟨S524288, .i32⟩
  | .hbm, ⟨15, _⟩ => ⟨S_, .f32⟩
  | .hbm, ⟨16, _⟩ => ⟨S52428800, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S_, .f32⟩
  | .hbm, ⟨26, _⟩ => ⟨S524288, .f32⟩
  | .hbm, ⟨27, _⟩ => ⟨S52428800, .f32⟩
  | .hbm, ⟨28, _⟩ => ⟨S1024x51200, .f32⟩
  | .hbm, ⟨29, _⟩ => ⟨S50257x1024, .bf16⟩
  | .hbm, ⟨30, _⟩ => ⟨S_, .i32⟩
  | .hbm, ⟨31, _⟩ => ⟨S_, .bf16⟩
  | .hbm, ⟨32, _⟩ => ⟨S51200x1024, .bf16⟩
  | .hbm, ⟨33, _⟩ => ⟨S1024x512, .bf16⟩
  | .hbm, ⟨34, _⟩ => ⟨S512x20, .bf16⟩
  | .hbm, ⟨35, _⟩ => ⟨S1x1024, .f32⟩
  | .hbm, ⟨36, _⟩ => ⟨S1x512, .f32⟩
  | .hbm, ⟨37, _⟩ => ⟨S1x20, .f32⟩
  | .hbm, ⟨38, _⟩ => ⟨S1024x20, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S512x20, .bf16⟩
  | .local _ .vmem, ⟨8, _⟩ => ⟨S1x20, .f32⟩
  | .local _ .vmem, ⟨9, _⟩ => ⟨S512x20, .f32⟩
  | .local _ .vmem, ⟨10, _⟩ => ⟨S512x20, .f32⟩
  | .local _ .vmem, ⟨11, _⟩ => ⟨S512x1024, .f32⟩
  | _, _ => ⟨S1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x20 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  shapeCasts_S1024x512_S524288 : S1024x512.ShapeCasts S524288
  bcast_S_S52428800 : S_.BroadcastsInDim S52428800 (![] : Fin 0 → Fin S52428800.rank)
  bcast_S_S524288 : S_.BroadcastsInDim S524288 (![] : Fin 0 → Fin S524288.rank)
  bcast_S524288_S524288x1_0 : S524288.BroadcastsInDim S524288x1 (![0] : Fin 1 → Fin S524288x1.rank)
  shapeCasts_S52428800_S1024x51200 : S52428800.ShapeCasts S1024x51200
  bitsLt_bf16_f32 : FTy.bits .bf16 < FTy.bits .f32
  pads_S50257x1024_S51200x1024_09430_000 : S50257x1024.Pads (![0, 0] : Fin 2 → Nat) ![943, 0] ![0, 0] S51200x1024
  h_S_ : 0 < S_.numel
  shapeCasts_S1024_S1x1024 : S1024.ShapeCasts S1x1024
  shapeCasts_S512_S1x512 : S512.ShapeCasts S1x512
  shapeCasts_S20_S1x20 : S20.ShapeCasts S1x20
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x20_S512x20_0_0 : ∀ a, (![0, 0] : Fin 2 → Nat) a + S512x20.size a ≤ S512x20.size a
  h_S512x20 : 0 < S512x20.numel
  shapeCasts_S512x20_S512x20 : S512x20.ShapeCasts S512x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S512x20 : S1x20.Broadcasts S512x20
  scatter_S52428800_S524288x1_S524288_n_0_0_1_wf : ScatterDims.WF S52428800 S524288x1 S524288 [] [0] [0] 1
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x20_S512x20_1_0_0_1_n_n_wf : DotDims.WF S512x512 S512x20 S512x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x51200.size a
  hwx0_0 : ∀ i : grid0.Coords, EltTy.bits .f32 = 32 ∨ (Rect.block (s := S1024x51200) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S51200x1024.size a
  hwx0_1 : ∀ i : grid0.Coords, EltTy.bits .bf16 = 32 ∨ (Rect.block (s := S51200x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x20.size a ≤ S512x20.size a
  hwx0_5 : ∀ i : grid0.Coords, EltTy.bits .bf16 = 32 ∨ (Rect.block (s := S512x20) S512x20.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x20.size a ≤ S1024x20.size a
  hwx0_7 : ∀ i : grid0.Coords, EltTy.bits .f32 = 32 ∨ (Rect.block (s := S1024x20) S512x20.size (cc0_transform_7 i) (hinb0_7 i)).WholeWords (EltTy.packing .f32)

variable [Facts₀]

def scatter_S52428800_S524288x1_S524288_n_0_0_1 : ScatterDims S52428800 S524288x1 S524288 where
  updateWindowDims := []
  insertedWindowDims := [0]
  scatterDimsToOperandDims := [0]
  indexVectorDim := 1
  wf := scatter_S52428800_S524288x1_S524288_n_0_0_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x20_S512x20_1_0_0_1_n_n : DotDims S512x512 S512x20 S512x20 where
  lhsContracting := [1]
  rhsContracting := [0]
  lhsNonContracting := [0]
  rhsNonContracting := [1]
  lhsBatch := []
  rhsBatch := []
  wf := dot_S512x512_S512x20_S512x20_1_0_0_1_n_n_wf

abbrev win0_0 : Pipeline.Window sig grid0 :=
  Pipeline.Window.ofSpec (Memref.whole main_v16) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S512x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S512x20.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x512 : Shape := ⟨2, ![1024, 512]⟩
abbrev S50257x1024 : Shape := ⟨2, ![50257, 1024]⟩
abbrev S1024 : Shape := ⟨1, ![1024]⟩
abbrev S512 : Shape := ⟨1, ![512]⟩
abbrev S512x20 : Shape := ⟨2, ![512, 20]⟩
abbrev S20 : Shape := ⟨1, ![20]⟩
abbrev S1024x1 : Shape := ⟨2, ![1024, 1]⟩
abbrev S_ : Shape := ⟨0, ![]⟩
abbrev S524288 : Shape := ⟨1, ![524288]⟩
abbrev S51463168 : Shape := ⟨1, ![51463168]⟩
abbrev S524288x1 : Shape := ⟨2, ![524288, 1]⟩
abbrev S1024x50257 : Shape := ⟨2, ![1024, 50257]⟩
abbrev S1024x1024 : Shape := ⟨2, ![1024, 1024]⟩
abbrev S1x1024 : Shape := ⟨2, ![1, 1024]⟩
abbrev S1x512 : Shape := ⟨2, ![1, 512]⟩
abbrev S1024x20 : Shape := ⟨2, ![1024, 20]⟩
abbrev S1x20 : Shape := ⟨2, ![1, 20]⟩

abbrev nBuf : Space → Nat
  | .hbm => 47
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S50257x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x20, .f32⟩
  | .hbm, ⟨6, _⟩ => ⟨S20, .f32⟩
  | .hbm, ⟨7, _⟩ => ⟨S1024, .i32⟩
  | .hbm, ⟨8, _⟩ => ⟨S1024x1, .i32⟩
  | .hbm, ⟨9, _⟩ => ⟨S_, .i32⟩
  | .hbm, ⟨10, _⟩ => ⟨S1024x1, .i32⟩
  | .hbm, ⟨11, _⟩ => ⟨S1024x1, .i32⟩
  | .hbm, ⟨12, _⟩ => ⟨S1024x512, .i32⟩
  | .hbm, ⟨13, _⟩ => ⟨S1024x512, .i32⟩
  | .hbm, ⟨14, _⟩ => ⟨S524288, .i32⟩
  | .hbm, ⟨15, _⟩ => ⟨S_, .f32⟩
  | .hbm, ⟨16, _⟩ => ⟨S51463168, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S_, .f32⟩
  | .hbm, ⟨26, _⟩ => ⟨S524288, .f32⟩
  | .hbm, ⟨27, _⟩ => ⟨S51463168, .f32⟩
  | .hbm, ⟨28, _⟩ => ⟨S1024x50257, .f32⟩
  | .hbm, ⟨29, _⟩ => ⟨S1024x1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x512, .f32⟩
  | .hbm, ⟨37, _⟩ => ⟨S1x512, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | .hbm, ⟨43, _⟩ => ⟨S1024x20, .f32⟩
  | .hbm, ⟨44, _⟩ => ⟨S1x20, .f32⟩
  | .hbm, ⟨45, _⟩ => ⟨S1024x20, .f32⟩
  | .hbm, ⟨46, _⟩ => ⟨S1024x20, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  shapeCasts_S1024x512_S524288 : S1024x512.ShapeCasts S524288
  bcast_S_S51463168 : S_.BroadcastsInDim S51463168 (![] : Fin 0 → Fin S51463168.rank)
  bcast_S_S524288 : S_.BroadcastsInDim S524288 (![] : Fin 0 → Fin S524288.rank)
  bcast_S524288_S524288x1_0 : S524288.BroadcastsInDim S524288x1 (![0] : Fin 1 → Fin S524288x1.rank)
  shapeCasts_S51463168_S1024x50257 : S51463168.ShapeCasts S1024x50257
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S20_S1x20_1 : S20.BroadcastsInDim S1x20 (![1] : Fin 1 → Fin S1x20.rank)
  bcast_S1x20_S1024x20_0_1 : S1x20.BroadcastsInDim S1024x20 (![0, 1] : Fin 2 → Fin S1024x20.rank)
  scatter_S51463168_S524288x1_S524288_n_0_0_1_wf : ScatterDims.WF S51463168 S524288x1 S524288 [] [0] [0] 1
  dot_S1024x50257_S50257x1024_S1024x1024_1_0_0_1_n_n_wf : DotDims.WF S1024x50257 S50257x1024 S1024x1024 [1] [0] [0] [1] [] []
  dot_S1024x1024_S1024x512_S1024x512_1_0_0_1_n_n_wf : DotDims.WF S1024x1024 S1024x512 S1024x512 [1] [0] [0] [1] [] []
  dot_S1024x512_S512x20_S1024x20_1_0_0_1_n_n_wf : DotDims.WF S1024x512 S512x20 S1024x20 [1] [0] [0] [1] [] []

variable [Facts₀]

def scatter_S51463168_S524288x1_S524288_n_0_0_1 : ScatterDims S51463168 S524288x1 S524288 where
  updateWindowDims := []
  insertedWindowDims := [0]
  scatterDimsToOperandDims := [0]
  indexVectorDim := 1
  wf := scatter_S51463168_S524288x1_S524288_n_0_0_1_wf
def dot_S1024x50257_S50257x1024_S1024x1024_1_0_0_1_n_n : DotDims S1024x50257 S50257x1024 S1024x1024 where
  lhsContracting := [1]
  rhsContracting := [0]
  lhsNonContracting := [0]
  rhsNonContracting := [1]
  lhsBatch := []
  rhsBatch := []
  wf := dot_S1024x50257_S50257x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x20_S1024x20_1_0_0_1_n_n : DotDims S1024x512 S512x20 S1024x20 where
  lhsContracting := [1]
  rhsContracting := [0]
  lhsNonContracting := [0]
  rhsNonContracting := [1]
  lhsBatch := []
  rhsBatch := []
  wf := dot_S1024x512_S512x20_S1024x20_1_0_0_1_n_n_wf

class Facts : Prop extends Facts₀ where

variable [Facts]
-- ==== Proof.PreDecode.lean ====
/-
  The precondition's last two conjuncts, read back. The precondition is a conjunction of
  `all`-reductions; its last two say of the int32 token array `x` that every entry is
  `≥ 0` (signed) and every entry is `< 50257` (signed). A reduction by `and` from 1 that came
  out 1 met only 1s, so each compare holds at every index; a signed 32-bit word that is
  non-negative and below 50257 is, as a natural number, below 50257: every token is a
  vocabulary entry.
-/
import proofs.«422080_j65386582114769_3_alg».proof.Pre_finite_inputs
import Idealize.ShloMosaic.Lib.ReduceAll
import Idealize.ShloMosaic.Lib.Affine
import Idealize.ShloMosaic.Lib.ValueIdx
import Idealize.ShloMosaic.Lib.StableHlo.Predicate

open Idealize.ShloMosaic

namespace Cert.PreDecode

open Cert.Pre_finite_inputs

/-- The rank-0 shape has exactly one index. -/
instance : Subsingleton S_.Idx := ⟨fun a b => funext fun d => d.elim0⟩

/-- A signed 32-bit word that is non-negative and below 50257 is below 50257 as a natural number. -/
theorem toNat_lt_of_toInt (w : BitVec 32) (h0 : (0 : Int) ≤ w.toInt) (h1 : w.toInt < 50257) : w.toNat < 50257 := by
  rw [BitVec.toInt_eq_toNat_cond] at h0 h1
  have := w.isLt
  split at h0 <;> omega

/-- Every token is a vocabulary entry: as a natural number it is below 50257. -/
theorem tokens_in_vocab {F : FTy → Type} [FloatOps F] [Cert.Pre_finite_inputs.Facts]
    (x : IVec Cert.Pre_finite_inputs.S1024x512 32) (a1 : FVec F Cert.Pre_finite_inputs.S50257x1024 .f32) (a2 : FVec F Cert.Pre_finite_inputs.S1024 .f32)
    (a3 : FVec F Cert.Pre_finite_inputs.S1024x512 .f32) (a4 : FVec F Cert.Pre_finite_inputs.S512 .f32) (a5 : FVec F Cert.Pre_finite_inputs.S512x20 .f32) (a6 : FVec F Cert.Pre_finite_inputs.S20 .f32)
    (h : Cert.Pre_finite_inputs.fn (F := F) x a1 a2 a3 a4 a5 a6 = fun _ => 1#1) (t : Cert.Pre_finite_inputs.S1024x512.Idx) : (x t).toNat < 50257 := by
  have h0 := congrFun h ValueIdx.ix0
  unfold Cert.Pre_finite_inputs.fn Cert.Pre_finite_inputs.fn_part1 Cert.Pre_finite_inputs.fn_part2 at h0
  dsimp only at h0
  -- the final conjunction, at its one index, is the conjunction of its two sides; twice
  obtain ⟨h1, hlt⟩ := IntOp.andi_eq_one.1 h0
  obtain ⟨-, hge⟩ := IntOp.andi_eq_one.1 h1
  -- an `all` that is 1 is 1 at every index: both compares hold at `t`
  have hge' := IntOp.cmpi_sge.1 (Host.reduce_andi_all _ _ _ _ _ hge t)
  have hlt' := IntOp.cmpi_slt.1 (Host.reduce_andi_all _ _ _ _ _ hlt t)
  -- the broadcast constants read at `t` are the constants
  have e0 : (0#32 : BitVec 32).toInt = 0 := by decide
  have e1 : (50257#32 : BitVec 32).toInt = 50257 := by decide
  exact toNat_lt_of_toInt (x t) (e0 ▸ hge') (e1 ▸ hlt')

end Cert.PreDecode
-- ==== Proof.Spec.lean ====
/-
  The function both programs compute: a bag-of-words classifier with two hidden layers.

  Row `b` of the token array holds 512 vocabulary entries. `cnt X b v` counts the tokens of row `b` equal to entry
  `v` (a sum of ones over the flat token positions `j` whose row is `b` and whose token is `v`, on top of the
  zero the histogram starts from). The first layer is `relu (∑ v, cnt X b v · W1 v p + b1 p)` over the 50257
  vocabulary entries; its summand is written over a natural number `v` and is zero from 50257 on, so that the sum may
  run over any longer range — which is how a vocabulary padded to 51200 entries, summed 2048 entries at a time, reaches
  the same number. The second layer and the output layer are plain affine maps with a relu between them.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The token array, the three weight matrices and the three bias vectors. -/
abbrev Tok := (⟨2, ![1024, 512]⟩ : Shape).Idx → BitVec 32
abbrev M1 := (⟨2, ![50257, 1024]⟩ : Shape).Idx → EReal
abbrev V1 := (⟨1, ![1024]⟩ : Shape).Idx → EReal
abbrev M2 := (⟨2, ![1024, 512]⟩ : Shape).Idx → EReal
abbrev V2 := (⟨1, ![512]⟩ : Shape).Idx → EReal
abbrev M3 := (⟨2, ![512, 20]⟩ : Shape).Idx → EReal
abbrev V3 := (⟨1, ![20]⟩ : Shape).Idx → EReal

/-- The zero a relu compares with and a histogram starts from, and the one a token adds: the programs' own words. -/
abbrev zeroW : EReal := Ideal.ofBits .f32 0x00000000#32
abbrev oneW : EReal := Ideal.ofBits .f32 0x3F800000#32

/-- The row and the column of flat position `j` of the row-major token array. -/
abbrev rowOf (j : (⟨1, ![524288]⟩ : Shape).Idx) : Fin 1024 :=
  ⟨(j 0).val / 512, by have h : (j 0).val < 524288 := (j 0).isLt; show (j 0).val / 512 < 1024; omega⟩
abbrev colOf (j : (⟨1, ![524288]⟩ : Shape).Idx) : Fin 512 :=
  ⟨(j 0).val % 512, by show (j 0).val % 512 < 512; omega⟩

/-- The token position at flat position `j`. -/
abbrev tok (j : (⟨1, ![524288]⟩ : Shape).Idx) : (⟨2, ![1024, 512]⟩ : Shape).Idx := ix2 (rowOf j) (colOf j)

/-- How many tokens of row `b` are vocabulary entry `v`. -/
def cnt (X : Tok) (b : Fin 1024) (v : ℕ) : EReal :=
  zeroW + ∑ j ∈ (Finset.univ : Finset (⟨1, ![524288]⟩ : Shape).Idx).filter
    (fun j => (j 0).val / 512 = b.val ∧ (X (tok j)).toNat = v), oneW

/-- Entry `v`'s share of hidden unit `p` for row `b`; zero past the vocabulary. -/
def term (X : Tok) (W1 : M1) (b p : Fin 1024) (v : ℕ) : EReal :=
  if h : v < 50257 then cnt X b v * W1 (ix2 (⟨v, h⟩ : Fin 50257) p) else 0

/-- The first hidden layer. -/
def hid1 (X : Tok) (W1 : M1) (b1 : V1) (b p : Fin 1024) : EReal :=
  max ((∑ v ∈ Finset.range 50257, term X W1 b p v) + b1 (ix1 p)) zeroW

/-- The second hidden layer. -/
def hid2 (X : Tok) (W1 : M1) (b1 : V1) (W2 : M2) (b2 : V2) (b : Fin 1024) (q : Fin 512) : EReal :=
  max ((∑ p : Fin 1024, hid1 X W1 b1 b p * W2 (ix2 p q)) + b2 (ix1 q)) zeroW

/-- The logits. -/
def logits (X : Tok) (W1 : M1) (b1 : V1) (W2 : M2) (b2 : V2) (W3 : M3) (b3 : V3) :
    (⟨2, ![1024, 20]⟩ : Shape).Idx → EReal :=
  fun i => (∑ q : Fin 512, hid2 X W1 b1 W2 b2 (i 0) q * W3 (ix2 q (i 1))) + b3 (ix1 (i 1))

/-- The first layer's sum may run over the padded vocabulary: the summand vanishes past entry 50257. -/
theorem sum_term_padded (X : Tok) (W1 : M1) (b p : Fin 1024) :
    ∑ v ∈ Finset.range 51200, term X W1 b p v = ∑ v ∈ Finset.range 50257, term X W1 b p v := by
  refine (Finset.sum_subset (Finset.range_subset_range.2 (by norm_num)) fun v _ hv => ?_).symm
  unfold term
  rw [dif_neg (by simpa using hv)]

/-- One more tile of 2048 vocabulary entries: the sum over the first `k + 1` tiles is the sum over the first `k`
    plus the tile's own 2048 summands. -/
theorem sum_term_tile (f : ℕ → EReal) (k : ℕ) :
    ∑ v ∈ Finset.range ((k + 1) * 2048), f v = ∑ v ∈ Finset.range (k * 2048), f v + ∑ v : Fin 2048, f (k * 2048 + v.val) := by
  rw [show (k + 1) * 2048 = k * 2048 + 2048 by ring, Finset.sum_range_add]
  exact congrArg (_ + ·) (Finset.sum_range fun x => f (k * 2048 + x))

end Cert.Spec

end
-- ==== Proof.LibFlatScatter.lean ====
/-
  A scatter-add into a FLAT array through a column of start indices: operand of shape [N], scatter indices of shape
  [n, 1], updates of shape [n], no window axes, the one operand axis inserted. Update `j` lands on the operand index
  that equals its start index read as a signed integer, and is dropped when that integer is negative or at least N.
  At the ideal instance the result at `i` is therefore the operand at `i` plus the sum of the updates whose start index
  is `i`.
-/
import Idealize.ShloMosaic.PureOps.Ideal
import Idealize.ShloMosaic.PureOps.Contract
import Idealize.ShloMosaic.Lib.ValueIdx

noncomputable section

open scoped BigOperators

namespace Cert.LibFlatScatter

open Idealize.ShloMosaic Idealize.ShloMosaic.ValueIdx

variable {N n w : Nat}

/-- Where update `j` of a flat scatter lands: exactly on the index equal to its signed start index. -/
theorem resultIdx?_flat (d : ScatterDims (⟨1, ![N]⟩ : Shape) ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (j : Fin n) (i : Fin N) :
    d.resultIdx? (ix1 j) idx = some (ix1 i) ↔ (idx (ix2 j 0)).toInt = (i.val : Int) := by
  obtain ⟨uw, iw, sd, iv, wf⟩ := d
  dsimp only at huw hiw hsd hiv
  subst huw hiw hsd hiv
  have hstart : ∀ a : Fin 1, ScatterDims.start ⟨[], [0], [0], 1, wf⟩ (ix1 j) idx a = (idx (ix2 j 0)).toInt := by
    intro a
    have ha : a = 0 := Subsingleton.elim _ _
    subst ha
    unfold ScatterDims.start
    rw [dif_pos (List.mem_singleton.2 rfl)]
    refine congrArg (fun k => (idx k).toInt) ?_
    funext b
    match b with
    | ⟨0, _⟩ => exact Fin.ext rfl
    | ⟨1, _⟩ => exact Fin.ext rfl
  have hwin : ∀ a : Fin 1, ScatterDims.window ⟨[], [0], [0], 1, wf⟩ (ix1 j) a = 0 := by
    intro a
    have ha : a = 0 := Subsingleton.elim _ _
    subst ha
    unfold ScatterDims.window
    rw [dif_neg (fun h => by have := (List.mem_filter.1 h).2; simp at this)]
  unfold ScatterDims.resultIdx?
  simp only [hstart, hwin, Nat.cast_zero, add_zero]
  constructor
  · intro h
    split at h
    · rename_i hc
      have h1 := congrFun (Option.some.inj h) 0
      have h2 : ((idx (ix2 j 0)).toInt).toNat = i.val := congrArg Fin.val h1
      have := (hc 0).1
      omega
    · exact absurd h (by simp)
  · intro h
    rw [dif_pos (fun a => by
      have ha : a = 0 := Subsingleton.elim _ _
      subst ha
      rw [h]
      exact ⟨Int.natCast_nonneg _, show (i.val : Int) < (N : Int) by exact_mod_cast i.isLt⟩)]
    refine congrArg some ?_
    funext a
    have ha : a = 0 := Subsingleton.elim _ _
    subst ha
    exact Fin.ext (by simp [h])

/-- A flat scatter-add at the ideal instance, read at index `i`: the operand there plus the updates whose signed
    start index is `i` (an update whose start index is outside the operand reaches no `i`). -/
theorem scatterAdd_flat_apply (d : ScatterDims (⟨1, ![N]⟩ : Shape) ⟨2, ![n, 1]⟩ ⟨1, ![n]⟩)
    (huw : d.updateWindowDims = []) (hiw : d.insertedWindowDims = [0]) (hsd : d.scatterDimsToOperandDims = [0])
    (hiv : d.indexVectorDim = 1) (x : FVec Ideal (⟨1, ![N]⟩ : Shape) .f32) (idx : IVec ⟨2, ![n, 1]⟩ w)
    (upd : FVec Ideal (⟨1, ![n]⟩ : Shape) .f32) (i : Fin N) :
    Host.scatterAdd (F := Ideal) d x idx upd (ix1 i)
      = x (ix1 i) + ∑ j ∈ (Finset.univ : Finset (⟨1, ![n]⟩ : Shape).Idx).filter
          (fun j => (idx (ix2 (j 0) 0)).toInt = (i.val : Int)), upd j := by
  show Ideal.hostScatterAdd d x idx upd (ix1 i) = _
  unfold Ideal.hostScatterAdd
  refine congrArg (x (ix1 i) + ·) (Finset.sum_congr (Finset.ext fun j => ?_) fun _ _ => rfl)
  simp only [Finset.mem_filter, Finset.mem_univ, true_and]
  have e : d.resultIdx? j idx = d.resultIdx? (ix1 (j 0)) idx := congrArg (d.resultIdx? · idx) (eq_ix1 j)
  rw [e]
  exact resultIdx?_flat d huw hiw hsd hiv idx (j 0) i

end Cert.LibFlatScatter

end
-- ==== Proof.FlatIndex.lean ====
/-
  The flat histogram index. Both programs turn token `X b s` into the flat position `b · V + X b s` of a [1024 · V]
  histogram (V = 50257 for one program, 51200 for the other), add the histogram's length to a negative position, and
  scatter a one there. This module names that column of start indices once (`flatCol`, generic in the row width `V`
  and the length `C`), reads it at a token position, and shows that for tokens inside the vocabulary the position is
  the natural number `b · V + X b s`, with no wrap-around and no negative branch. The histogram read at row `b`,
  entry `v` is then the token count `Spec.cnt X b v`, whatever the row width.
-/
import Idealize.ShloMosaic.Lib.StableHlo.Predicate
import Idealize.ShloMosaic.Lib.Pipeline.Value
import Idealize.ShloMosaic.Lib.Affine
import proofs.«422080_j65386582114769_3_alg».proof.Proof.Spec
import proofs.«422080_j65386582114769_3_alg».proof.Proof.LibFlatScatter

noncomputable section

open scoped BigOperators

namespace Cert.FlatIndex

open Idealize.ShloMosaic Idealize.ShloMosaic.ValueIdx Idealize.ShloMosaic.StableHlo.Predicate Cert.Spec

abbrev S_ : Shape := ⟨0, ![]⟩
abbrev S1024 : Shape := ⟨1, ![1024]⟩
abbrev S1024x1 : Shape := ⟨2, ![1024, 1]⟩
abbrev S1024x512 : Shape := ⟨2, ![1024, 512]⟩
abbrev S524288 : Shape := ⟨1, ![524288]⟩
abbrev S524288x1 : Shape := ⟨2, ![524288, 1]⟩

/-- The flat positions before the sign fix: `iota · V + X`, row-major. -/
def flatPos (V : BitVec 32) (hb1 : S1024.BroadcastsInDim S1024x1 ![0]) (hb2 : S_.BroadcastsInDim S1024x1 ![])
    (hb3 : S1024x1.BroadcastsInDim S1024x512 ![0, 1]) (hsc : S1024x512.ShapeCasts S524288) (X : Tok) : IVec S524288 32 :=
  shapeCast _ (addi (broadcastInDim S1024x512 ![0, 1] hb3 (muli (broadcastInDim S1024x1 ![0] hb1 (iotaInDim S1024 32 0))
    (broadcastInDim S1024x1 ![] hb2 (constantI S_ 32 V)))) X) hsc

/-- The column of start indices the scatter reads: a negative flat position has the histogram's length `C` added. -/
def flatCol (V C : BitVec 32) (hb1 : S1024.BroadcastsInDim S1024x1 ![0]) (hb2 : S_.BroadcastsInDim S1024x1 ![])
    (hb3 : S1024x1.BroadcastsInDim S1024x512 ![0, 1]) (hsc : S1024x512.ShapeCasts S524288)
    (hb4 : S_.BroadcastsInDim S524288 ![]) (hb5 : S524288.BroadcastsInDim S524288x1 ![0]) (X : Tok) : IVec S524288x1 32 :=
  broadcastInDim S524288x1 ![0] hb5
    (select (cmpi .slt (flatPos V hb1 hb2 hb3 hsc X) (broadcastInDim S524288 ![] hb4 (constantI S_ 32 0#32)))
      (addi (flatPos V hb1 hb2 hb3 hsc X) (broadcastInDim S524288 ![] hb4 (constantI S_ 32 C)))
      (flatPos V hb1 hb2 hb3 hsc X))

variable (V C : BitVec 32) (hb1 : S1024.BroadcastsInDim S1024x1 ![0]) (hb2 : S_.BroadcastsInDim S1024x1 ![])
    (hb3 : S1024x1.BroadcastsInDim S1024x512 ![0, 1]) (hsc : S1024x512.ShapeCasts S524288)
    (hb4 : S_.BroadcastsInDim S524288 ![]) (hb5 : S524288.BroadcastsInDim S524288x1 ![0]) (X : Tok)

/-- The flat position of token position `j`: its row number times the row width, plus the token, as 32-bit words. -/
theorem flatPos_apply (j : S524288.Idx) :
    flatPos V hb1 hb2 hb3 hsc X j
      = IntOp.addi (IntOp.muli (BitVec.ofNat 32 ((j 0).val / 512)) V) (X (tok j)) := by
  unfold flatPos
  refine (shapeCast_apply _ hsc j (tok j) (by
    rewrite [Shape.rowMajor_val_two, Shape.rowMajor_val_one]
    have h0 : (j 0).val < 524288 := (j 0).isLt
    show (j 0).val / 512 * 512 + (j 0).val % 512 = (j 0).val
    omega)).trans ?_
  show IntOp.addi _ (X (tok j)) = _
  refine congrArg (IntOp.addi · (X (tok j))) ?_
  refine (bcast_of_col hb3 _ (rowOf j) (colOf j)).trans ?_
  show IntOp.muli _ V = _
  refine congrArg (IntOp.muli · V) ?_
  exact bcast_col1 hb1 _ (rowOf j)

/-- Two numbers with the same quotient-and-remainder form over one width are the same pair. -/
theorem euclid_unique {w q₁ r₁ q₂ r₂ : ℕ} (h₁ : r₁ < w) (h₂ : r₂ < w) (h : q₁ * w + r₁ = q₂ * w + r₂) : q₁ = q₂ ∧ r₁ = r₂ := by
  have hw : 0 < w := by omega
  have e₁ : (q₁ * w + r₁) / w = q₁ := by
    rw [Nat.add_comm, Nat.add_mul_div_right _ _ hw, Nat.div_eq_of_lt h₁, Nat.zero_add]
  have e₂ : (q₂ * w + r₂) / w = q₂ := by
    rw [Nat.add_comm, Nat.add_mul_div_right _ _ hw, Nat.div_eq_of_lt h₂, Nat.zero_add]
  have hq : q₁ = q₂ := by rw [← e₁, ← e₂, h]
  subst hq
  exact ⟨rfl, by omega⟩

/-- For tokens inside the vocabulary and a row width between 50257 and 51200 the start index of token position `j`,
    read as a signed word, is the natural number `row · V + token`: the product and the sum stay far below 2³¹, so
    nothing wraps and the negative branch is never taken. -/
theorem flatCol_toInt (hV : V.toNat ≤ 51200) (hX : ∀ t, (X t).toNat < 50257) (j : Fin 524288) :
    (flatCol V C hb1 hb2 hb3 hsc hb4 hb5 X (ix2 j 0)).toInt
      = (((j.val / 512) * V.toNat + (X (tok (ix1 j))).toNat : ℕ) : Int) := by
  have hj : j.val / 512 < 1024 := by have := j.isLt; omega
  have hx := hX (tok (ix1 j))
  have hprod : j.val / 512 * V.toNat ≤ 1023 * 51200 := Nat.mul_le_mul (by omega) hV
  have h1 : (IntOp.muli (BitVec.ofNat 32 (j.val / 512)) V).toNat = j.val / 512 * V.toNat := by
    show (BitVec.ofNat 32 (j.val / 512) * V).toNat = _
    rw [BitVec.toNat_mul, BitVec.toNat_ofNat, Nat.mod_eq_of_lt (by omega : j.val / 512 < 2 ^ 32), Nat.mod_eq_of_lt (by omega)]
  have h2 : (IntOp.addi (IntOp.muli (BitVec.ofNat 32 (j.val / 512)) V) (X (tok (ix1 j)))).toNat
      = j.val / 512 * V.toNat + (X (tok (ix1 j))).toNat := by
    show (IntOp.muli (BitVec.ofNat 32 (j.val / 512)) V + X (tok (ix1 j))).toNat = _
    rw [BitVec.toNat_add, h1, Nat.mod_eq_of_lt (by omega)]
  have h3 := toInt_eq_toNat_of_lt (a := IntOp.addi (IntOp.muli (BitVec.ofNat 32 (j.val / 512)) V) (X (tok (ix1 j)))) (by rw [h2]; omega)
  have e : flatCol V C hb1 hb2 hb3 hsc hb4 hb5 X (ix2 j 0)
      = IntOp.addi (IntOp.muli (BitVec.ofNat 32 (j.val / 512)) V) (X (tok (ix1 j))) := by
    have eix : (ix2 j (0 : Fin 1) : S524288x1.Idx) = ixP j := by
      funext a; match a with | ⟨0, _⟩ => rfl | ⟨1, _⟩ => rfl
    rw [eix]
    unfold flatCol
    refine (bcast_col1 hb5 _ j).trans ?_
    show Scalar.select (IntOp.cmpi .slt (flatPos V hb1 hb2 hb3 hsc X (ix1 j)) 0#32)
      (IntOp.addi (flatPos V hb1 hb2 hb3 hsc X (ix1 j)) C) (flatPos V hb1 hb2 hb3 hsc X (ix1 j)) = _
    rw [flatPos_apply]
    have hn : ¬IntOp.cmpi .slt (IntOp.addi (IntOp.muli (BitVec.ofNat 32 (j.val / 512)) V) (X (tok (ix1 j)))) 0#32 = 1#1 := by
      rw [IntOp.cmpi_slt, h3]
      simp
    rw [eq_zero_of_ne_one hn, select_zero]
  rw [e, h3, h2]

/-- THE HISTOGRAM. A flat scatter-add of ones at those start indices into a zero array of 1024 rows of width `V`, read
    at row `b`, entry `v`, is the number of tokens of row `b` that are entry `v`: position `j` lands there exactly when
    its row is `b` and its token is `v`, both being remainders below the row width. -/
theorem hist_apply {N : ℕ} (d : ScatterDims (⟨1, ![N]⟩ : Shape) S524288x1 S524288)
    (huw : d.updateWindowDims = []) (hiw : d.insertedWindowDims = [0]) (hsd : d.scatterDimsToOperandDims = [0])
    (hiv : d.indexVectorDim = 1) (hV : V.toNat ≤ 51200) (hV' : 50257 ≤ V.toNat) (hX : ∀ t, (X t).toNat < 50257)
    (x : FVec Ideal (⟨1, ![N]⟩ : Shape) .f32) (hx : ∀ i, x i = zeroW) (upd : FVec Ideal S524288 .f32) (hu : ∀ j, upd j = oneW)
    (b : Fin 1024) (v : ℕ) (hv : v < V.toNat) (hlt : b.val * V.toNat + v < N) :
    Host.scatterAdd (F := Ideal) d x (flatCol V C hb1 hb2 hb3 hsc hb4 hb5 X) upd (ix1 (⟨b.val * V.toNat + v, hlt⟩ : Fin N))
      = cnt X b v := by
  rw [LibFlatScatter.scatterAdd_flat_apply d huw hiw hsd hiv, hx]
  unfold cnt
  refine congrArg (zeroW + ·) (Finset.sum_congr (Finset.ext fun j => ?_) fun j _ => hu j)
  simp only [Finset.mem_filter, Finset.mem_univ, true_and]
  rw [flatCol_toInt V C hb1 hb2 hb3 hsc hb4 hb5 X hV hX (j 0)]
  show (((j 0).val / 512 * V.toNat + (X (tok j)).toNat : ℕ) : Int) = ((b.val * V.toNat + v : ℕ) : Int) ↔ _
  rw [Nat.cast_inj]
  have hxj := hX (tok j)
  constructor
  · intro h
    exact euclid_unique (by omega) hv h
  · rintro ⟨h1, h2⟩
    rw [h1, h2]

end Cert.FlatIndex

end
-- ==== Proof.RefValue.lean ====
/-
  The reference program computes the specification.

  The reference builds a histogram of each token row (a flat scatter-add of ones into a zero array of 1024 rows of
  50257 entries, read back as a 1024 × 50257 matrix), multiplies it by the first weight matrix, adds the bias and
  clamps at zero; then two more affine layers, with a clamp at zero between them. Each stage is read at an index:
  the histogram entry is the token count, the first product is the sum of count-times-weight over the vocabulary,
  and the later layers are sums over the hidden units. Composed, the last stage is the logits of the specification.
-/
import proofs.«422080_j65386582114769_3_alg».proof.Proof.Gen.ReferenceIdeal.Read
import proofs.«422080_j65386582114769_3_alg».proof.Proof.Spec
import proofs.«422080_j65386582114769_3_alg».proof.Proof.FlatIndex
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Gen Cert.ReferenceIdeal.Read

/-- The histogram stage, read at row b and entry v, is the number of tokens of row b equal to v: the flat
    position b · 50257 + v of the scattered array is where exactly those tokens add their one. -/
theorem hist (X : Cert.Spec.Tok) (hX : ∀ t, (X t).toNat < 50257) (b : Fin 1024) (v : Fin 50257) :
    val_main_v16 (F := Ideal) X (ix2 b v) = Cert.Spec.cnt X b v.val := by
  rw [val_main_v16_apply]
  have hlt : b.val * (50257#32).toNat + v.val < 51463168 := by
    have hb : b.val < 1024 := b.isLt
    have hv : v.val < 50257 := v.isLt
    show b.val * 50257 + v.val < 51463168
    omega
  have hidx : idx_main_v16 (ix2 b v) = ix1 (⟨b.val * (50257#32).toNat + v.val, hlt⟩ : Fin 51463168) :=
    funext fun a => by match a with | ⟨0, _⟩ => rfl
  rw [hidx]
  have hcol : val_main_v13 (F := Ideal) X
      = Cert.FlatIndex.flatCol 50257#32 51463168#32 bcast_S1024_S1024x1_0 bcast_S_S1024x1 bcast_S1024x1_S1024x512_0_1
          shapeCasts_S1024x512_S524288 bcast_S_S524288 bcast_S524288_S524288x1_0 X := rfl
  unfold val_main_v15
  rw [hcol]
  exact Cert.FlatIndex.hist_apply 50257#32 51463168#32 bcast_S1024_S1024x1_0 bcast_S_S1024x1 bcast_S1024x1_S1024x512_0_1
    shapeCasts_S1024x512_S524288 bcast_S_S524288 bcast_S524288_S524288x1_0 X
    scatter_S51463168_S524288x1_S524288_n_0_0_1 rfl rfl rfl rfl (by decide) (by decide) hX
    (val_main_v7 (F := Ideal)) (fun i => (val_main_v7_apply i).trans rfl)
    (val_main_v14 (F := Ideal)) (fun j => (val_main_v14_apply j).trans rfl)
    b v.val v.isLt hlt

/-- The first hidden layer: the product of the histogram with the first weight matrix is the sum over the
    vocabulary of count times weight, which is the specification's sum of its summands below 50257; the bias is
    added and the result clamped at zero. -/
theorem hid1_eq (X : Cert.Spec.Tok) (W1 : Cert.Spec.M1) (b1 : Cert.Spec.V1) (hX : ∀ t, (X t).toNat < 50257)
    (b p : Fin 1024) :
    val_main_v21 (F := Ideal) X W1 b1 (ix2 b p) = Cert.Spec.hid1 X W1 b1 b p := by
  rw [val_main_v21_apply, val_main_v20_apply, val_main_v17_apply, val_main_v19_apply, val_main_v18_apply,
    val_main_call0_v0_apply, val_main_call0_cst_apply, Ideal.maximumf_def, Ideal.addf_def, Ideal.ofBits_def]
  unfold Cert.Spec.hid1
  have hbias : idx_main_v18 (idx_main_v19 (ix2 b p)) = ix1 p :=
    funext fun a => by match a with | ⟨0, _⟩ => rfl
  rw [hbias, Finset.sum_range (fun v => Cert.Spec.term X W1 b p v)]
  refine congrArg (fun s => max (s + b1 (ix1 p)) Cert.Spec.zeroW) (Finset.sum_congr rfl fun k _ => ?_)
  have hl : lidx_main_v17 (ix2 b p) k = ix2 b k :=
    funext fun a => by match a with | ⟨0, _⟩ => rfl | ⟨1, _⟩ => rfl
  have hr : ridx_main_v17 (ix2 b p) k = ix2 (⟨k.val, k.isLt⟩ : Fin 50257) p :=
    funext fun a => by match a with | ⟨0, _⟩ => rfl | ⟨1, _⟩ => rfl
  unfold Cert.Spec.term
  rw [dif_pos k.isLt, hl, hr, hist X hX b k]

/-- The second hidden layer: a sum over the 1024 first-layer units, plus the bias, clamped at zero. -/
theorem hid2_eq (X : Cert.Spec.Tok) (W1 : Cert.Spec.M1) (b1 : Cert.Spec.V1) (W2 : Cert.Spec.M2) (b2 : Cert.Spec.V2)
    (hX : ∀ t, (X t).toNat < 50257) (b : Fin 1024) (q : Fin 512) :
    val_main_v26 (F := Ideal) X W1 b1 W2 b2 (ix2 b q) = Cert.Spec.hid2 X W1 b1 W2 b2 b q := by
  rw [val_main_v26_apply, val_main_v25_apply, val_main_v22_apply, val_main_v24_apply, val_main_v23_apply,
    val_main_call1_v0_apply, val_main_call1_cst_apply, Ideal.maximumf_def, Ideal.addf_def, Ideal.ofBits_def]
  unfold Cert.Spec.hid2
  have hbias : idx_main_v23 (idx_main_v24 (ix2 b q)) = ix1 q :=
    funext fun a => by match a with | ⟨0, _⟩ => rfl
  rw [hbias]
  refine congrArg (fun s => max (s + b2 (ix1 q)) Cert.Spec.zeroW) (Finset.sum_congr rfl fun k _ => ?_)
  have hl : lidx_main_v22 (ix2 b q) k = ix2 b k :=
    funext fun a => by match a with | ⟨0, _⟩ => rfl | ⟨1, _⟩ => rfl
  have hr : ridx_main_v22 (ix2 b q) k = ix2 k q :=
    funext fun a => by match a with | ⟨0, _⟩ => rfl | ⟨1, _⟩ => rfl
  rw [hl, hr, hid1_eq X W1 b1 hX b k]

/-- The reference computes the specification: for tokens inside the vocabulary, the last stage of the reference,
    read at row b and class n, is the sum over the 512 second-layer units of the unit times its output weight,
    plus the output bias — the logits. -/
theorem ref_eq_logits (X : Cert.Spec.Tok) (W1 : Cert.Spec.M1) (b1 : Cert.Spec.V1) (W2 : Cert.Spec.M2)
    (b2 : Cert.Spec.V2) (W3 : Cert.Spec.M3) (b3 : Cert.Spec.V3)
    (hX : ∀ t, (X t).toNat < 50257) :
    Cert.ReferenceIdeal.Read.val_main_v30 (F := Ideal) X W1 b1 W2 b2 W3 b3 = Cert.Spec.logits X W1 b1 W2 b2 W3 b3 := by
  funext i
  obtain ⟨b, n, rfl⟩ : ∃ (b : Fin 1024) (n : Fin 20), i = ix2 b n := ⟨i 0, i 1, eq_ix2 i⟩
  rw [val_main_v30_apply, val_main_v27_apply, val_main_v29_apply, val_main_v28_apply, Ideal.addf_def]
  unfold Cert.Spec.logits
  have hbias : idx_main_v28 (idx_main_v29 (ix2 b n)) = ix1 n :=
    funext fun a => by match a with | ⟨0, _⟩ => rfl
  rw [hbias]
  refine congrArg (fun s => s + b3 (ix1 n)) (Finset.sum_congr rfl fun k _ => ?_)
  have hl : lidx_main_v27 (ix2 b n) k = ix2 b k :=
    funext fun a => by match a with | ⟨0, _⟩ => rfl | ⟨1, _⟩ => rfl
  have hr : ridx_main_v27 (ix2 b n) k = ix2 k n :=
    funext fun a => by match a with | ⟨0, _⟩ => rfl | ⟨1, _⟩ => rfl
  rw [hl, hr, hid2_eq X W1 b1 W2 b2 hX b k]

end Cert.RefValue

end
-- ==== Proof.KernelArrays.lean ====
/-
  The arrays the kernel's grid finds, as functions of the arguments (all at the ideal instance).

  Before the grid runs the program builds a histogram of 1024 rows and 51200 columns (row `b`, column `v`: how many
  tokens of row `b` are vocabulary entry `v`), pads the first weight matrix with 943 zero rows to 51200 rows, passes
  the other two weight matrices through a change of format (the identity on extended reals) and lays each bias vector
  out as a one-row matrix. Each is read here at an index.
-/
import proofs.«422080_j65386582114769_3_alg».proof.Proof.Gen.KernelIdeal.Value
import proofs.«422080_j65386582114769_3_alg».proof.Proof.FlatIndex
import Idealize.ShloMosaic.Lib.KernelVsHost
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The arguments, by name. -/
abbrev tokens (c : Dev nD) : Cert.Spec.Tok := m ((c : Thread nD τ).loc main_arg0)
abbrev w1 (c : Dev nD) : Cert.Spec.M1 := m ((c : Thread nD τ).loc main_arg1)
abbrev c1 (c : Dev nD) : Cert.Spec.V1 := m ((c : Thread nD τ).loc main_arg2)
abbrev w2 (c : Dev nD) : Cert.Spec.M2 := m ((c : Thread nD τ).loc main_arg3)
abbrev c2 (c : Dev nD) : Cert.Spec.V2 := m ((c : Thread nD τ).loc main_arg4)
abbrev w3 (c : Dev nD) : Cert.Spec.M3 := m ((c : Thread nD τ).loc main_arg5)
abbrev c3 (c : Dev nD) : Cert.Spec.V3 := m ((c : Thread nD τ).loc main_arg6)

set_option maxHeartbeats 4000000 in
/-- The histogram the grid finds is the flat scatter-add of ones, reshaped to 1024 rows of 51200. -/
theorem hist_eq (c : Dev nD) :
    (V m c main_v16 : S1024x51200.Idx → EReal)
      = shapeCast _ (Host.scatterAdd (F := Ideal) scatter_S52428800_S524288x1_S524288_n_0_0_1
          (broadcastInDim S52428800 ![] bcast_S_S52428800 (constant S_ .f32 0x00000000#32))
          (Cert.FlatIndex.flatCol 51200#32 52428800#32 bcast_S1024_S1024x1_0 bcast_S_S1024x1 bcast_S1024x1_S1024x512_0_1
            shapeCasts_S1024x512_S524288 bcast_S_S524288 bcast_S524288_S524288x1_0 (tokens m c))
          (broadcastInDim S524288 ![] bcast_S_S524288 (constant S_ .f32 0x3F800000#32))) shapeCasts_S52428800_S1024x51200 := by
  dsimp only [V]
  simp only [hostOps0, hostOps0_1, hostOps0_2, List.flatten_cons, List.flatten_nil, List.append_nil, List.cons_append,
    List.nil_append]
  after_results_simp
  rfl

/-- Row `b`, column `v` of the histogram is the number of tokens of row `b` that are entry `v`, when every token is
    inside the vocabulary. -/
theorem hist_apply (c : Dev nD) (hX : ∀ t, (tokens m c t).toNat < 50257) (b : Fin 1024) (v : Fin 51200) :
    (V m c main_v16 : S1024x51200.Idx → EReal) (ix2 b v) = Cert.Spec.cnt (tokens m c) b v.val := by
  rw [hist_eq]
  have hlt : b.val * (51200#32 : BitVec 32).toNat + v.val < 52428800 := by
    have h1 := b.isLt; have h2 := v.isLt
    show b.val * 51200 + v.val < 52428800
    omega
  refine (shapeCast_apply _ shapeCasts_S52428800_S1024x51200 (ix2 b v)
    (ix1 (⟨b.val * (51200#32 : BitVec 32).toNat + v.val, hlt⟩ : Fin 52428800)) (by
      rewrite [Shape.rowMajor_val_one, Shape.rowMajor_val_two]; rfl)).trans ?_
  exact Cert.FlatIndex.hist_apply 51200#32 52428800#32 bcast_S1024_S1024x1_0 bcast_S_S1024x1 bcast_S1024x1_S1024x512_0_1
    shapeCasts_S1024x512_S524288 bcast_S_S524288 bcast_S524288_S524288x1_0 (tokens m c)
    scatter_S52428800_S524288x1_S524288_n_0_0_1 rfl rfl rfl rfl (by decide) (by decide) hX _ (fun _ => rfl) _ (fun _ => rfl)
    b v.val v.isLt hlt

set_option maxHeartbeats 4000000 in
/-- The first weight matrix as the grid finds it: padded with zero rows to 51200 rows. -/
theorem w1p_eq (c : Dev nD) :
    (V m c main_v18 : S51200x1024.Idx → EReal)
      = pad S51200x1024 ![0, 0] ![943, 0] ![0, 0] (truncf .bf16 (w1 m c) bitsLt_bf16_f32 : FVec Ideal S50257x1024 .bf16)
          (sitofp .bf16 (constantI S_ 32 0#32) : FVec Ideal S_ .bf16) pads_S50257x1024_S51200x1024_09430_000 h_S_ := by
  dsimp only [V]
  simp only [hostOps0, hostOps0_1, hostOps0_2, List.flatten_cons, List.flatten_nil, List.append_nil, List.cons_append,
    List.nil_append]
  after_results_simp
  rfl

/-- A row of the padded matrix inside the vocabulary is the weight matrix's row; -/
theorem w1p_apply_in (c : Dev nD) (v : Fin 51200) (h : v.val < 50257) (p : Fin 1024) :
    (V m c main_v18 : S51200x1024.Idx → EReal) (ix2 v p) = w1 m c (ix2 (⟨v.val, h⟩ : Fin 50257) p) := by
  rw [w1p_eq]
  refine (pad_apply_of_inside _ _ _ _ _ pads_S50257x1024_S51200x1024_09430_000 h_S_ (ix2 v p) (ix2 (⟨v.val, h⟩ : Fin 50257) p)
    (fun a => by match a with
      | ⟨0, _⟩ => show v.val = 0 + v.val * (0 + 1); omega
      | ⟨1, _⟩ => show p.val = 0 + p.val * (0 + 1); omega)).trans ?_
  rfl

/-- a row past it is zero. -/
theorem w1p_apply_out (c : Dev nD) (v : Fin 51200) (h : ¬v.val < 50257) (p : Fin 1024) :
    ((V m c main_v18 : S51200x1024.Idx → EReal) (ix2 v p) : EReal) = (0 : EReal) := by
  rw [w1p_eq]
  refine (pad_apply_of_not_inside _ _ _ _ _ pads_S50257x1024_S51200x1024_09430_000 h_S_ (ix2 v p) (0 : Fin 2)
    (fun hh => h (by have := hh.2.2; simpa using this))).trans ?_
  show ((((0#32 : BitVec 32).toInt : ℤ) : ℝ) : EReal) = 0
  simp

set_option maxHeartbeats 4000000 in
/-- The other two weight matrices pass through a change of format, which keeps every extended real. -/
theorem w2_apply (c : Dev nD) (j : S1024x512.Idx) : (V m c main_v19 : S1024x512.Idx → EReal) j = w2 m c j := by
  dsimp only [V]
  simp only [hostOps0, hostOps0_1, hostOps0_2, List.flatten_cons, List.flatten_nil, List.append_nil, List.cons_append,
    List.nil_append]
  after_results_simp
  rfl

set_option maxHeartbeats 4000000 in
theorem w3_apply (c : Dev nD) (j : S512x20.Idx) : (V m c main_v20 : S512x20.Idx → EReal) j = w3 m c j := by
  dsimp only [V]
  simp only [hostOps0, hostOps0_1, hostOps0_2, List.flatten_cons, List.flatten_nil, List.append_nil, List.cons_append,
    List.nil_append]
  after_results_simp
  rfl

set_option maxHeartbeats 4000000 in
/-- Each bias vector is laid out as a one-row matrix. -/
theorem c1_apply (c : Dev nD) (p : Fin 1024) : (V m c main_v21 : S1x1024.Idx → EReal) (ix2 (0 : Fin 1) p) = c1 m c (ix1 p) := by
  have e : (V m c main_v21 : S1x1024.Idx → EReal) = shapeCast _ (c1 m c) shapeCasts_S1024_S1x1024 := by
    dsimp only [V]
    simp only [hostOps0, hostOps0_1, hostOps0_2, List.flatten_cons, List.flatten_nil, List.append_nil, List.cons_append,
      List.nil_append]
    after_results_simp
    rfl
  rw [e]
  exact shapeCast_a_1a_apply _ _ _ _

set_option maxHeartbeats 4000000 in
theorem c2_apply (c : Dev nD) (q : Fin 512) : (V m c main_v22 : S1x512.Idx → EReal) (ix2 (0 : Fin 1) q) = c2 m c (ix1 q) := by
  have e : (V m c main_v22 : S1x512.Idx → EReal) = shapeCast _ (c2 m c) shapeCasts_S512_S1x512 := by
    dsimp only [V]
    simp only [hostOps0, hostOps0_1, hostOps0_2, List.flatten_cons, List.flatten_nil, List.append_nil, List.cons_append,
      List.nil_append]
    after_results_simp
    rfl
  rw [e]
  exact shapeCast_a_1a_apply _ _ _ _

set_option maxHeartbeats 4000000 in
theorem c3_apply (c : Dev nD) (n : Fin 20) : (V m c main_v23 : S1x20.Idx → EReal) (ix2 (0 : Fin 1) n) = c3 m c (ix1 n) := by
  have e : (V m c main_v23 : S1x20.Idx → EReal) = shapeCast _ (c3 m c) shapeCasts_S20_S1x20 := by
    dsimp only [V]
    simp only [hostOps0, hostOps0_1, hostOps0_2, List.flatten_cons, List.flatten_nil, List.append_nil, List.cons_append,
      List.nil_append]
    after_results_simp
    rfl
  rw [e]
  exact shapeCast_a_1a_apply _ _ _ _

end Cert.KernelIdeal.Arrays

end
-- ==== Proof.KernelPieces.lean ====
/-
  What one run of the kernel body leaves behind, as values.

  The body keeps a running sum in a scratch block: at the first vocabulary tile of a row block it clears the scratch,
  at every tile it adds the tile's product `bow-tile · W1-tile` to it, and at the last tile it also applies the two
  remaining layers to the finished sum and stores the logits block. So, writing `acc ⊕ (x, w)` for the accumulation
  payload and `tail` for the two-layer payload: the first tile leaves `0 ⊕ (x, w)` in the scratch, a middle tile leaves
  `acc ⊕ (x, w)`, and the last tile leaves `acc ⊕ (x, w)` in the scratch and `tail (acc ⊕ (x, w))` in the output block.
-/
import proofs.«422080_j65386582114769_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S512x2048 .f32) (harg2 : arg2.IsWhole) (arg3 : Memref sig .tc .vmem S2048x1024 .bf16) (harg3 : arg3.IsWhole)
  (arg4 : Memref sig .tc .vmem S1x1024 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S512x20 .bf16) (harg7 : arg7.IsWhole)
  (arg8 : Memref sig .tc .vmem S1x20 .f32) (harg8 : arg8.IsWhole) (arg9 : Memref sig .tc .vmem S512x20 .f32) (harg9 : arg9.IsWhole)
  (arg10 : Memref sig .tc .vmem S512x1024 .f32) (harg10 : arg10.IsWhole)
  (x0 : Vec F S512x2048 .f32) (x1 : Vec F S2048x1024 .bf16) (x2 : Vec F S1x1024 .f32) (x3 : Vec F S1024x512 .bf16)
  (x4 : Vec F S1x512 .f32) (x5 : Vec F S512x20 .bf16) (x6 : Vec F S1x20 .f32)

/-- A middle tile: the scratch ends at the accumulation payload of what it held. -/
theorem scratch_B (hc0 : ¬cond0_0 i) (hc1 : ¬cond0_1 i) (xs0 : Vec F S512x1024 .f32) :
    sout0_B_0 c i arg2 harg2 arg3 harg3 arg4 harg4 arg5 harg5 arg6 harg6 arg7 harg7 arg8 harg8 arg9 harg9 arg10 harg10 hc0 hc1
      x0 x1 x2 x3 x4 x5 x6 xs0 = k0_pay2 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg10.read_unread,
    View.ld_unit_zero (S := S512x2048) hz, View.ld_unit_zero (S := S2048x1024) hz, View.ld_unit_zero (S := S512x1024) hz]

/-- The last tile leaves the same in the scratch; -/
theorem scratch_C (hc0 : ¬cond0_0 i) (hc1 : cond0_1 i) (xs0 : Vec F S512x1024 .f32) :
    sout0_C_0 c i arg2 harg2 arg3 harg3 arg4 harg4 arg5 harg5 arg6 harg6 arg7 harg7 arg8 harg8 arg9 harg9 arg10 harg10 hc0 hc1
      x0 x1 x2 x3 x4 x5 x6 xs0 = k0_pay2 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg10.read_unread,
    View.ld_unit_zero (S := S512x2048) hz, View.ld_unit_zero (S := S2048x1024) hz, View.ld_unit_zero (S := S512x1024) hz]

/-- and the two remaining layers of that finished sum in the output block. -/
theorem out_C (hc0 : ¬cond0_0 i) (hc1 : cond0_1 i) (xs0 : Vec F S512x1024 .f32) :
    out0_C_7 c i arg2 harg2 arg3 harg3 arg4 harg4 arg5 harg5 arg6 harg6 arg7 harg7 arg8 harg8 arg9 harg9 arg10 harg10 hc0 hc1
      x0 x1 x2 x3 x4 x5 x6 xs0 = k0_pay3 (k0_pay2 x0 xs0 x1) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread,
    View.readCov_unit_zero (S := S512x1024) _ hz,
    View.ld_unit_zero (S := S512x2048) hz, View.ld_unit_zero (S := S2048x1024) hz, View.ld_unit_zero (S := S512x1024) hz,
    View.ld_unit_zero (S := S1x1024) hz, View.ld_unit_zero (S := S1024x512) hz, View.ld_unit_zero (S := S1x512) hz,
    View.ld_unit_zero (S := S512x20) hz, View.ld_unit_zero (S := S1x20) hz]

/-- The first tile clears the scratch and accumulates into the cleared block. -/
theorem scratch_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1
      x0 x1 x2 x3 x4 x5 x6 = k0_pay2 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) hz, View.readCov_unit_zero (S := S512x1024) _ hz]
  simp only [View.readAt_eq_ld, harg2.read_unread, harg3.read_unread,
    View.ld_unit_zero (S := S512x2048) hz, View.ld_unit_zero (S := S2048x1024) hz, View.ld_unit_zero (S := S512x1024) hz]

end Cert.KernelIdeal.Pieces

end
-- ==== Proof.LibPlainMatmul.lean ====
/-
  A plain matrix product's contraction sum, re-indexed. For dimension numbers that contract the left operand's second
  axis with the right operand's first ([A, K] times [K, B], no batch axes) the sum over the contraction index of the
  operands' products at output index (a, b) is the textbook `∑ k < K, l (a, k) · r (k, b)`.
-/
import Idealize.ShloMosaic.PureOps.Ideal
import Idealize.ShloMosaic.Lib.ValueIdx

noncomputable section

open scoped BigOperators

namespace Cert.LibPlainMatmul

open Idealize.ShloMosaic Idealize.ShloMosaic.ValueIdx

variable {A K B : ℕ} (d : DotDims (⟨2, ![A, K]⟩ : Shape) ⟨2, ![K, B]⟩ ⟨2, ![A, B]⟩)

/-- The left operand is read on the output's row. -/
theorem lhs_row (hln : d.lhsNonContracting = [0]) (hlb : d.lhsBatch = []) (j : (⟨2, ![A, B]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.2 rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand is read on the output's column. -/
theorem rhs_col (hln : d.lhsNonContracting = [0]) (hlb : d.lhsBatch = []) (hrn : d.rhsNonContracting = [1]) (hrb : d.rhsBatch = [])
    (j : (⟨2, ![A, B]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.2 rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction sum of a plain product at output index (a, b). -/
theorem sum_plain (hlc : d.lhsContracting = [1]) (hrc : d.rhsContracting = [0]) (hln : d.lhsNonContracting = [0])
    (hrn : d.rhsNonContracting = [1]) (hlb : d.lhsBatch = []) (hrb : d.rhsBatch = [])
    (l : (⟨2, ![A, K]⟩ : Shape).Idx → EReal) (r : (⟨2, ![K, B]⟩ : Shape).Idx → EReal) (a : Fin A) (b : Fin B) :
    ∑ k : d.contr.Idx, l (d.lhsIdx (ix2 a b) k) * r (d.rhsIdx (ix2 a b) k) = ∑ k : Fin K, l (ix2 a k) * r (ix2 k b) := by
  have hr : d.contr.rank = 1 := by rw [d.rank_contr, hlc]; rfl
  have hs : d.contr.size ⟨0, by omega⟩ = K := by
    have h0 : 0 < d.lhsContracting.length := by rw [hlc]; exact Nat.one_pos
    have e : d.lhsContracting[0] = (1 : Fin 2) := by simp [hlc]
    rw [d.size_contr 0 h0, e]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun x => Fin.ext (by
    match x with
    | ⟨0, _⟩ => exact lhs_row d hln hlb _ _
    | ⟨1, _⟩ => exact (d.lhsIdx_val_of_single hlc _ _).trans hk)
  have er : d.rhsIdx (ix2 a b) ((contrEquiv1 d K hr hs).symm k) = ix2 k b := funext fun x => Fin.ext (by
    match x with
    | ⟨0, _⟩ => exact (d.rhsIdx_val_of_single hrc _ _).trans hk
    | ⟨1, _⟩ => exact rhs_col d hln hlb hrn hrb _ _)
  rw [el, er]

end Cert.LibPlainMatmul

end
-- ==== Proof.KernelPayload.lean ====
/-
  The kernel body's three payloads read at an index, at the ideal instance.

  The clearing payload is zero everywhere. The accumulation payload adds to the carried sum the product of the
  bag-of-words tile with the weight tile: entry (r, p) gains `∑ v < 2048, x (r, v) · w (v, p)`. The closing payload
  applies the rest of the network to the finished sum `s`: with `h₁ (r, p) = max (s (r, p) + c₁ p) 0` and
  `h₂ (r, q) = max (∑ p, h₁ (r, p) · W₂ (p, q) + c₂ q) 0` it is `∑ q, h₂ (r, q) · W₃ (q, n) + c₃ n`. A change of
  float format keeps every extended real, and a product into a zero accumulator is the bare sum.
-/
import proofs.«422080_j65386582114769_3_alg».proof.Proof.Gen.KernelIdeal.Skeleton
import proofs.«422080_j65386582114769_3_alg».proof.Proof.LibPlainMatmul
import proofs.«422080_j65386582114769_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Spec

/-- The clearing payload is zero. -/
theorem pay1_apply (j : S512x1024.Idx) : (k0_pay1 (F := Ideal) j : EReal) = 0 := by
  unfold k0_pay1
  simp only [shapeCast_self]
  show Ideal.ofBits .f32 0x00000000#32 = 0
  exact Ideal.ofBits_zero_f32

/-- The accumulation payload: the carried sum plus the tile's product. -/
theorem pay2_apply (v3 : Vec Ideal S512x2048 .f32) (v6 : Vec Ideal S512x1024 .f32) (v7 : Vec Ideal S2048x1024 .bf16)
    (r : Fin 512) (p : Fin 1024) :
    (k0_pay2 v3 v6 v7 (ix2 r p) : EReal) = v6 (ix2 r p) + ∑ v : Fin 2048, v3 (ix2 r v) * v7 (ix2 v p) := by
  unfold k0_pay2
  simp only [shapeCast_self]
  show v6 (ix2 r p) + FloatOps.matmul dot_S512x2048_S2048x1024_S512x1024_1_0_0_1_n_n none
    (truncf .bf16 v3 bitsLt_bf16_f32 : FVec Ideal S512x2048 .bf16) v7 (constant S512x1024 .f32 0x00000000#32) (ix2 r p) = _
  rw [Ideal.matmul_constant_zero_apply]
  exact congrArg (v6 (ix2 r p) + ·)
    (Cert.LibPlainMatmul.sum_plain dot_S512x2048_S2048x1024_S512x1024_1_0_0_1_n_n rfl rfl rfl rfl rfl rfl _ _ r p)

/-- The closing payload: the two remaining layers of the finished sum. -/
theorem pay3_apply (v17 : Vec Ideal S512x1024 .f32) (v18 : Vec Ideal S1x1024 .f32) (v25 : Vec Ideal S1024x512 .bf16)
    (v28 : Vec Ideal S1x512 .f32) (v35 : Vec Ideal S512x20 .bf16) (v38 : Vec Ideal S1x20 .f32) (r : Fin 512) (n : Fin 20) :
    (k0_pay3 v17 v18 v25 v28 v35 v38 (ix2 r n) : EReal)
      = (∑ q : Fin 512, max ((∑ p : Fin 1024, max (v17 (ix2 r p) + v18 (ix2 (0 : Fin 1) p)) zeroW * v25 (ix2 p q))
            + v28 (ix2 (0 : Fin 1) q)) zeroW * v35 (ix2 q n)) + v38 (ix2 (0 : Fin 1) n) := by
  unfold k0_pay3
  simp only [shapeCast_self]
  rw [addf_apply, broadcastTo_1b_ab_apply]
  refine congrArg (· + v38 (ix2 (0 : Fin 1) n)) ?_
  refine (Ideal.matmul_constant_zero_apply (φ₁ := .bf16) (φ₂ := .bf16) dot_S512x512_S512x20_S512x20_1_0_0_1_n_n none _ v35 (ix2 r n)).trans ?_
  refine (Cert.LibPlainMatmul.sum_plain dot_S512x512_S512x20_S512x20_1_0_0_1_n_n rfl rfl rfl rfl rfl rfl _ _ r n).trans ?_
  refine Finset.sum_congr rfl fun q _ => congrArg (· * v35 (ix2 q n)) ?_
  rw [truncf_apply, maximumf_apply, addf_apply, broadcastTo_1b_ab_apply, broadcast_apply]
  refine congrArg (fun z => max (z + v28 (ix2 (0 : Fin 1) q)) zeroW) ?_
  refine (Ideal.matmul_constant_zero_apply (φ₁ := .bf16) (φ₂ := .bf16) dot_S512x1024_S1024x512_S512x512_1_0_0_1_n_n none _ v25 (ix2 r q)).trans ?_
  refine (Cert.LibPlainMatmul.sum_plain dot_S512x1024_S1024x512_S512x512_1_0_0_1_n_n rfl rfl rfl rfl rfl rfl _ _ r q).trans ?_
  refine Finset.sum_congr rfl fun p _ => congrArg (· * v25 (ix2 p q)) ?_
  rw [truncf_apply, maximumf_apply, addf_apply, broadcastTo_1b_ab_apply, broadcast_apply]
  rfl

end Cert.KernelIdeal.Payload

end
-- ==== Proof.KernelValue.lean ====
/-
  The kernel's result array, as a function of the arguments (at the ideal instance).

  The grid has 2 row blocks of 512 rows times 25 vocabulary tiles of 2048 entries; point `t` is row block `t / 25`,
  tile `t % 25`. The scratch block carries, for row `512 · (t / 25) + r` and hidden unit `p`, the first layer's sum
  over the vocabulary entries of the tiles seen so far: after point `t` it is the sum of `Spec.term` over the first
  `(t % 25 + 1) · 2048` entries (induction on the point; a tile's product of histogram block and padded-weight block is
  the tile's 2048 summands, the padded rows contributing zero). After the last tile that is the sum over all 51200 padded
  entries, which is the sum over the vocabulary, and the closing payload turns it into the logits of the row block:
  what the last tile's point writes back is the block of `Spec.logits`. The two write-backs cover the result array.
-/
import proofs.«422080_j65386582114769_3_alg».proof.Proof.Gen.KernelIdeal.Value
import proofs.«422080_j65386582114769_3_alg».proof.Proof.KernelArrays
import proofs.«422080_j65386582114769_3_alg».proof.Proof.KernelPieces
import proofs.«422080_j65386582114769_3_alg».proof.Proof.KernelPayload
import proofs.«422080_j65386582114769_3_alg».proof.Proof.Spec

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.Spec Cert.KernelIdeal.Arrays

variable (m : (ℓ : Loc nD τ sig) → Buf (Elt Ideal) ℓ) (ρ : Dev nD → PrngReg)

/-- The input blocks at a point, by their literal types. -/
abbrev xblk (c : Dev nD) (t : Fin cfg0.N) : Vec Ideal S512x2048 .f32 := iblk m c 0 t
abbrev wblk (c : Dev nD) (t : Fin cfg0.N) : Vec Ideal S2048x1024 .bf16 := iblk m c 1 t
abbrev c1blk (c : Dev nD) (t : Fin cfg0.N) : Vec Ideal S1x1024 .f32 := iblk m c 2 t
abbrev w2blk (c : Dev nD) (t : Fin cfg0.N) : Vec Ideal S1024x512 .bf16 := iblk m c 3 t
abbrev c2blk (c : Dev nD) (t : Fin cfg0.N) : Vec Ideal S1x512 .f32 := iblk m c 4 t
abbrev w3blk (c : Dev nD) (t : Fin cfg0.N) : Vec Ideal S512x20 .bf16 := iblk m c 5 t
abbrev c3blk (c : Dev nD) (t : Fin cfg0.N) : Vec Ideal S1x20 .f32 := iblk m c 6 t

/-- The block index maps over the grid: the histogram's block is (row block, tile), the padded weight's (tile, 0), the
    output's (row block, 0), every other window's (0, 0). -/
theorem idx_facts : ∀ t : Fin cfg0.N,
    win0_0.index t (0 : Fin 2) = t.val / 25 ∧ win0_0.index t (1 : Fin 2) = t.val % 25
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 25 ∧ win0_7.index t (1 : Fin 2) = 0 :=
  (by decide +kernel : ∀ t : Fin grid0.N, _)

theorem N50 : cfg0.N = 50 := N_0

/-- The row of the token array that row `r` of point `t`'s row block is. -/
abbrev rowAt (t : ℕ) (ht : t < 50) (r : Fin 512) : Fin 1024 := ⟨512 * (t / 25) + r.val, by have := r.isLt; omega⟩

/-- Entry (r, v) of the histogram's block at point `t` is the histogram at row `512 · (t / 25) + r`, column
    `2048 · (t % 25) + v`. -/
theorem xblk_apply (c : Dev nD) (t : Fin cfg0.N) (r : Fin 512) (v : Fin 2048) :
    (xblk m c t (ix2 r v) : EReal)
      = (V m c main_v16 : S1024x51200.Idx → EReal) (ix2 (rowAt t.val (N50 ▸ t.isLt) r)
          (⟨(t.val % 25) * 2048 + v.val, by have := v.isLt; omega⟩ : Fin 51200)) := by
  obtain ⟨e0, e1, -⟩ := idx_facts t
  unfold xblk iblk
  rw [View.read_apply]
  show V m c main_v16 _ = V m c main_v16 _
  congr 1
  funext a; apply Fin.ext
  match a with
  | ⟨0, _⟩ => show win0_0.index t (0 : Fin 2) * 512 + 1 * r.val = 512 * (t.val / 25) + r.val; rw [e0]; omega
  | ⟨1, _⟩ => show win0_0.index t (1 : Fin 2) * 2048 + 1 * v.val = (t.val % 25) * 2048 + v.val; rw [e1]; omega

/-- Entry (v, p) of the padded weight's block at point `t` is the padded weight at row `2048 · (t % 25) + v`. -/
theorem wblk_apply (c : Dev nD) (t : Fin cfg0.N) (v : Fin 2048) (p : Fin 1024) :
    (wblk m c t (ix2 v p) : EReal)
      = (V m c main_v18 : S51200x1024.Idx → EReal) (ix2 (⟨(t.val % 25) * 2048 + v.val, by have := v.isLt; omega⟩ : Fin 51200) p) := by
  obtain ⟨-, -, e0, e1, -⟩ := idx_facts t
  unfold wblk iblk
  rw [View.read_apply]
  show V m c main_v18 _ = V m c main_v18 _
  congr 1
  funext a; apply Fin.ext
  match a with
  | ⟨0, _⟩ => show win0_1.index t (0 : Fin 2) * 2048 + 1 * v.val = (t.val % 25) * 2048 + v.val; rw [e0]; omega
  | ⟨1, _⟩ => show win0_1.index t (1 : Fin 2) * 1024 + 1 * p.val = p.val; rw [e1]; omega

/-- The windows that never move hold whole arrays: the biases as one-row matrices, the two later weight matrices. -/
theorem c1blk_apply (c : Dev nD) (t : Fin cfg0.N) (p : Fin 1024) : (c1blk m c t (ix2 (0 : Fin 1) p) : EReal) = c1 m c (ix1 p) := by
  obtain ⟨-, -, -, -, e0, e1, -⟩ := idx_facts t
  refine Eq.trans ?_ (c1_apply m c p)
  unfold c1blk iblk
  rw [View.read_apply]
  show V m c main_v21 _ = V m c main_v21 _
  congr 1
  funext a; apply Fin.ext
  match a with
  | ⟨0, _⟩ => show win0_2.index t (0 : Fin 2) * 1 + 1 * 0 = 0; rw [e0]
  | ⟨1, _⟩ => show win0_2.index t (1 : Fin 2) * 1024 + 1 * p.val = p.val; rw [e1]; omega

theorem w2blk_apply (c : Dev nD) (t : Fin cfg0.N) (p : Fin 1024) (q : Fin 512) : (w2blk m c t (ix2 p q) : EReal) = w2 m c (ix2 p q) := by
  obtain ⟨-, -, -, -, -, -, e0, e1, -⟩ := idx_facts t
  refine Eq.trans ?_ (w2_apply m c (ix2 p q))
  unfold w2blk iblk
  rw [View.read_apply]
  show V m c main_v19 _ = V m c main_v19 _
  congr 1
  funext a; apply Fin.ext
  match a with
  | ⟨0, _⟩ => show win0_3.index t (0 : Fin 2) * 1024 + 1 * p.val = p.val; rw [e0]; omega
  | ⟨1, _⟩ => show win0_3.index t (1 : Fin 2) * 512 + 1 * q.val = q.val; rw [e1]; omega

theorem c2blk_apply (c : Dev nD) (t : Fin cfg0.N) (q : Fin 512) : (c2blk m c t (ix2 (0 : Fin 1) q) : EReal) = c2 m c (ix1 q) := by
  obtain ⟨-, -, -, -, -, -, -, -, e0, e1, -⟩ := idx_facts t
  refine Eq.trans ?_ (c2_apply m c q)
  unfold c2blk iblk
  rw [View.read_apply]
  show V m c main_v22 _ = V m c main_v22 _
  congr 1
  funext a; apply Fin.ext
  match a with
  | ⟨0, _⟩ => show win0_4.index t (0 : Fin 2) * 1 + 1 * 0 = 0; rw [e0]
  | ⟨1, _⟩ => show win0_4.index t (1 : Fin 2) * 512 + 1 * q.val = q.val; rw [e1]; omega

theorem w3blk_apply (c : Dev nD) (t : Fin cfg0.N) (q : Fin 512) (n : Fin 20) : (w3blk m c t (ix2 q n) : EReal) = w3 m c (ix2 q n) := by
  obtain ⟨-, -, -, -, -, -, -, -, -, -, e0, e1, -⟩ := idx_facts t
  refine Eq.trans ?_ (w3_apply m c (ix2 q n))
  unfold w3blk iblk
  rw [View.read_apply]
  show V m c main_v20 _ = V m c main_v20 _
  congr 1
  funext a; apply Fin.ext
  match a with
  | ⟨0, _⟩ => show win0_5.index t (0 : Fin 2) * 512 + 1 * q.val = q.val; rw [e0]; omega
  | ⟨1, _⟩ => show win0_5.index t (1 : Fin 2) * 20 + 1 * n.val = n.val; rw [e1]; omega

theorem c3blk_apply (c : Dev nD) (t : Fin cfg0.N) (n : Fin 20) : (c3blk m c t (ix2 (0 : Fin 1) n) : EReal) = c3 m c (ix1 n) := by
  obtain ⟨-, -, -, -, -, -, -, -, -, -, -, -, e0, e1, -⟩ := idx_facts t
  refine Eq.trans ?_ (c3_apply m c n)
  unfold c3blk iblk
  rw [View.read_apply]
  show V m c main_v23 _ = V m c main_v23 _
  congr 1
  funext a; apply Fin.ext
  match a with
  | ⟨0, _⟩ => show win0_6.index t (0 : Fin 2) * 1 + 1 * 0 = 0; rw [e0]
  | ⟨1, _⟩ => show win0_6.index t (1 : Fin 2) * 20 + 1 * n.val = n.val; rw [e1]; omega

/-- A tile's product at an entry is the specification's summand at that vocabulary entry: inside the vocabulary the
    histogram is the token count and the padded weight the weight; past it the padded weight is zero. -/
theorem tile_term (c : Dev nD) (hX : ∀ u, (tokens m c u).toNat < 50257) (t : Fin cfg0.N) (r : Fin 512) (p : Fin 1024)
    (v : Fin 2048) :
    (xblk m c t (ix2 r v) : EReal) * wblk m c t (ix2 v p)
      = term (tokens m c) (w1 m c) (rowAt t.val (N50 ▸ t.isLt) r) p ((t.val % 25) * 2048 + v.val) := by
  rw [xblk_apply, wblk_apply, hist_apply m c hX]
  unfold term
  by_cases h : (t.val % 25) * 2048 + v.val < 50257
  · rw [dif_pos h, w1p_apply_in m c _ h]
  · rw [dif_neg h, w1p_apply_out m c _ h, mul_zero]

/-- One tile more: a carried sum over the entries of the tiles before, plus this tile's product, is the sum over the
    entries up to and including this tile. -/
theorem step (c : Dev nD) (hX : ∀ u, (tokens m c u).toNat < 50257) (t : Fin cfg0.N) (r : Fin 512) (p : Fin 1024) (prev : EReal)
    (hprev : prev = ∑ v ∈ Finset.range ((t.val % 25) * 2048), term (tokens m c) (w1 m c) (rowAt t.val (N50 ▸ t.isLt) r) p v) :
    prev + ∑ v : Fin 2048, (xblk m c t (ix2 r v) : EReal) * wblk m c t (ix2 v p)
      = ∑ v ∈ Finset.range ((t.val % 25 + 1) * 2048), term (tokens m c) (w1 m c) (rowAt t.val (N50 ▸ t.isLt) r) p v := by
  rw [sum_term_tile, hprev]
  exact congrArg (_ + ·) (Finset.sum_congr rfl fun v _ => tile_term m c hX t r p v)

/-- What the scratch holds after a point, case by case, over the input blocks by their literal types. -/
theorem scratch_A_at (c : Dev nD) (t : Fin cfg0.N) (h0 : t.val % 25 = 0) (h1 : ¬t.val % 25 = 24) :
    (outsAt0 m c t.val t.isLt).2 = k0_pay2 (xblk m c t) (k0_pay1 (F := Ideal)) (wblk m c t) := by
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

theorem scratch_B_at (c : Dev nD) (t : Fin cfg0.N) (h0 : ¬t.val % 25 = 0) (h1 : ¬t.val % 25 = 24) :
    (outsAt0 m c t.val t.isLt).2
      = k0_pay2 (xblk m c t) (outsAt0 m c (t.val - 1) (Nat.lt_of_le_of_lt (Nat.sub_le _ _) t.isLt)).2 (wblk m c t) := by
  rw [outsAt0_B m c t h0 h1]
  dsimp only
  exact Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (fun h => h0 ((hcond0_0 t).mp h)) (fun h => h1 ((hcond0_1 t).mp h))
    (outsAt0 m c (t.val - 1) (Nat.lt_of_le_of_lt (Nat.sub_le _ _) t.isLt)).2

theorem scratch_C_at (c : Dev nD) (t : Fin cfg0.N) (h0 : ¬t.val % 25 = 0) (h1 : t.val % 25 = 24) :
    (outsAt0 m c t.val t.isLt).2
      = k0_pay2 (xblk m c t) (outsAt0 m c (t.val - 1) (Nat.lt_of_le_of_lt (Nat.sub_le _ _) t.isLt)).2 (wblk m c t) := by
  rw [outsAt0_C m c t h0 h1]
  dsimp only
  exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (fun h => h0 ((hcond0_0 t).mp h)) ((hcond0_1 t).mpr h1)
    (outsAt0 m c (t.val - 1) (Nat.lt_of_le_of_lt (Nat.sub_le _ _) t.isLt)).2

/-- The output block after a row block's last tile is the closing payload of the scratch after that point. -/
theorem out_C_at (c : Dev nD) (t : Fin cfg0.N) (h0 : ¬t.val % 25 = 0) (h1 : t.val % 25 = 24) :
    (outsAt0 m c t.val t.isLt).1
      = k0_pay3 (k0_pay2 (xblk m c t) (outsAt0 m c (t.val - 1) (Nat.lt_of_le_of_lt (Nat.sub_le _ _) t.isLt)).2 (wblk m c t))
          (c1blk m c t) (w2blk m c t) (c2blk m c t) (w3blk m c t) (c3blk m c t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (fun h => h0 ((hcond0_0 t).mp h)) ((hcond0_1 t).mpr h1)
    (outsAt0 m c (t.val - 1) (Nat.lt_of_le_of_lt (Nat.sub_le _ _) t.isLt)).2

/-- THE RUNNING SUM. After point `n` the scratch holds, at (r, p), the first layer's sum for row
    `512 · (n / 25) + r` over the vocabulary entries of the tiles up to `n % 25`. -/
theorem scratch_eq (c : Dev nD) (hX : ∀ u, (tokens m c u).toNat < 50257) :
    ∀ (n : ℕ) (h : n < cfg0.N) (r : Fin 512) (p : Fin 1024),
      ((outsAt0 m c n h).2 (ix2 r p) : EReal)
        = ∑ v ∈ Finset.range ((n % 25 + 1) * 2048), term (tokens m c) (w1 m c) (rowAt n (N50 ▸ h) r) p v
  | 0, h, r, p => by
    have e : (outsAt0 m c 0 h).2 = k0_pay2 (xblk m c ⟨0, h⟩) (k0_pay1 (F := Ideal)) (wblk m c ⟨0, h⟩) :=
      scratch_A_at m c ⟨0, h⟩ (Nat.zero_mod 25) (by show ¬(0 % 25 = 24); decide)
    rw [e, Payload.pay2_apply, Payload.pay1_apply]
    exact step m c hX ⟨0, h⟩ r p 0 (by simp)
  | n + 1, h, r, p => by
    have hN : n + 1 < 50 := N50 ▸ h
    by_cases h0 : (n + 1) % 25 = 0
    · have e : (outsAt0 m c (n + 1) h).2 = k0_pay2 (xblk m c ⟨n + 1, h⟩) (k0_pay1 (F := Ideal)) (wblk m c ⟨n + 1, h⟩) :=
        scratch_A_at m c ⟨n + 1, h⟩ h0 (by show ¬(n + 1) % 25 = 24; omega)
      rw [e, Payload.pay2_apply, Payload.pay1_apply]
      exact step m c hX ⟨n + 1, h⟩ r p 0 (by rw [show (⟨n + 1, h⟩ : Fin cfg0.N).val % 25 = 0 from h0]; simp)
    · have e : (outsAt0 m c (n + 1) h).2
          = k0_pay2 (xblk m c ⟨n + 1, h⟩) (outsAt0 m c n (Nat.lt_of_succ_lt h)).2 (wblk m c ⟨n + 1, h⟩) := by
        by_cases h1 : (n + 1) % 25 = 24
        · exact scratch_C_at m c ⟨n + 1, h⟩ h0 h1
        · exact scratch_B_at m c ⟨n + 1, h⟩ h0 h1
      rw [e, Payload.pay2_apply]
      refine step m c hX ⟨n + 1, h⟩ r p _ ?_
      rw [scratch_eq c hX n (Nat.lt_of_succ_lt h) r p]
      have e1 : n % 25 + 1 = (n + 1) % 25 := by omega
      have e2 : rowAt n (N50 ▸ Nat.lt_of_succ_lt h) r = rowAt (n + 1) hN r :=
        Fin.ext (by show 512 * (n / 25) + r.val = 512 * ((n + 1) / 25) + r.val; omega)
      rw [e1, e2]

/-- After a row block's last tile the scratch holds the first layer's sum over the whole vocabulary: 25 tiles are the
    51200 padded entries, and the summand vanishes past entry 50257. -/
theorem scratch_last (c : Dev nD) (hX : ∀ u, (tokens m c u).toNat < 50257) (t : Fin cfg0.N) (h1 : t.val % 25 = 24)
    (r : Fin 512) (p : Fin 1024) :
    ((outsAt0 m c t.val t.isLt).2 (ix2 r p) : EReal)
      = ∑ v ∈ Finset.range 50257, term (tokens m c) (w1 m c) (rowAt t.val (N50 ▸ t.isLt) r) p v := by
  rw [scratch_eq m c hX t.val t.isLt r p, h1]
  exact sum_term_padded _ _ _ _

/-- The function the result array ends holding: the specification's logits of the arguments. -/
abbrev result (c : Dev nD) : Buf (Elt Ideal) ((c : Thread nD τ).loc main_v24) :=
  logits (tokens m c) (w1 m c) (c1 m c) (w2 m c) (c2 m c) (w3 m c) (c3 m c)

/-- The output block after a row block's last tile is that row block of the logits. -/
theorem out_apply (c : Dev nD) (hX : ∀ u, (tokens m c u).toNat < 50257) (t : Fin cfg0.N) (h1 : t.val % 25 = 24)
    (r : Fin 512) (n : Fin 20) :
    ((outsAt0 m c t.val t.isLt).1 (ix2 r n) : EReal) = result m c (ix2 (rowAt t.val (N50 ▸ t.isLt) r) n) := by
  have h0 : ¬t.val % 25 = 0 := by omega
  rw [out_C_at m c t h0 h1, ← scratch_C_at m c t h0 h1, Payload.pay3_apply]
  simp only [scratch_last m c hX t h1, c1blk_apply, w2blk_apply, c2blk_apply, w3blk_apply, c3blk_apply]
  rfl

/-- WHAT A WRITE-BACK WRITES: at a row block's last tile, the block of the logits. -/
theorem flushed_eq (c : Dev nD) (hX : ∀ u, (tokens m c u).toNat < 50257) (t : Fin cfg0.N) (hf : (cfg0.win 7).flush t = true) :
    (dats m 0 c).flushed 7 t = ((cfg0.win 7).blk t).view.read (Elt Ideal) (result m c) := by
  have h1 : t.val % 25 = 24 := (flush0_7 t).mp hf
  obtain ⟨-, -, -, -, -, -, -, -, -, -, -, -, -, -, e0, e1⟩ := idx_facts t
  rw [Value.flushed7]
  funext j
  have hj0 : (j 0).val < 512 := (j 0).isLt
  have hj1 : (j 1).val < 20 := (j 1).isLt
  have ex : (cfg0.win 7).xinj (grid0.coords t) j = ix2 (⟨(j 0).val, hj0⟩ : Fin 512) (⟨(j 1).val, hj1⟩ : Fin 20) := by
    funext a; match a with | ⟨0, _⟩ => rfl | ⟨1, _⟩ => rfl
  have ee : ((cfg0.win 7).blk t).view.emb j
      = ix2 (rowAt t.val (N50 ▸ t.isLt) (⟨(j 0).val, hj0⟩ : Fin 512)) (⟨(j 1).val, hj1⟩ : Fin 20) := by
    funext a; apply Fin.ext
    match a with
    | ⟨0, _⟩ => show win0_7.index t (0 : Fin 2) * 512 + 1 * (j 0).val = 512 * (t.val / 25) + (j 0).val; rw [e0]; omega
    | ⟨1, _⟩ => show win0_7.index t (1 : Fin 2) * 20 + 1 * (j 1).val = (j 1).val; rw [e1]; omega
  show (outsAt0 m c t.val t.isLt).1 ((cfg0.win 7).xinj (grid0.coords t) j) = _
  rw [View.read_apply, ex, ee]
  exact out_apply m c hX t h1 _ _

/-- Every row of the result array lies in the block some row block's last tile writes back. -/
theorem cover (i : S1024x20.Idx) :
    ∃ t : Fin cfg0.N, (cfg0.win 7).flush t = true ∧ i ∈ ((cfg0.win 7).blk t).view.set := by
  have hi0 : (i 0).val < 1024 := (i 0).isLt
  have hi1 : (i 1).val < 20 := (i 1).isLt
  have ht : 25 * ((i 0).val / 512) + 24 < cfg0.N := by rw [N50]; omega
  refine ⟨⟨25 * ((i 0).val / 512) + 24, ht⟩, (flush0_7 _).mpr (by show (25 * ((i 0).val / 512) + 24) % 25 = 24; omega), ?_⟩
  obtain ⟨-, -, -, -, -, -, -, -, -, -, -, -, -, -, e0, e1⟩ := idx_facts ⟨25 * ((i 0).val / 512) + 24, ht⟩
  show i ∈ ((View.whole main_v24).slice (win0_7.rect ⟨25 * ((i 0).val / 512) + 24, ht⟩)).set
  rw [View.set_slice_whole, Rect.mem_set_unit]
  intro a
  match a with
  | ⟨0, _⟩ =>
    show win0_7.index ⟨25 * ((i 0).val / 512) + 24, ht⟩ (0 : Fin 2) * 512 ≤ (i 0).val
      ∧ (i 0).val < win0_7.index ⟨25 * ((i 0).val / 512) + 24, ht⟩ (0 : Fin 2) * 512 + 512
    rw [e0]
    show (25 * ((i 0).val / 512) + 24) / 25 * 512 ≤ (i 0).val ∧ (i 0).val < (25 * ((i 0).val / 512) + 24) / 25 * 512 + 512
    omega
  | ⟨1, _⟩ =>
    show win0_7.index ⟨25 * ((i 0).val / 512) + 24, ht⟩ (1 : Fin 2) * 20 ≤ (i 1).val
      ∧ (i 1).val < win0_7.index ⟨25 * ((i 0).val / 512) + 24, ht⟩ (1 : Fin 2) * 20 + 20
    rw [e1]
    omega

/-- THE RESULT ARRAY after the run is the logits of the arguments. -/
theorem final (c : Dev nD) (hX : ∀ u, (tokens m c u).toNat < 50257) : (dats m 0 c).arrAt 7 cfg0.N = result m c :=
  (dats m 0 c).arrAt_eq_of_cover 7 (result m c) (flushed_eq m c hX) cover

/-- The kernel's run, read: the result array at the logits, the arguments unchanged. -/
theorem run (hX : ∀ (c : Dev nD) u, (tokens m c u).toNat < 50257) :
    θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hX c)), (h c).2⟩) (Value.run_blocks m ρ)

end Cert.KernelIdeal.Result

end
-- ==== Proof.lean ====
/-
  The certificate of a bag-of-words classifier kernel against its jnp reference, over the extended reals.

  Both programs count, for each of 1024 rows of 512 tokens, how often each vocabulary entry occurs (a scatter-add of
  ones into a flat histogram), multiply the histogram with a first weight matrix, and apply two more affine layers with
  a relu after the first two. The reference keeps the histogram 50257 entries wide and does three whole matrix
  products. The kernel pads the histogram and the first weight matrix to 51200 entries, with zero weight rows, and sums
  the first product tile by tile (25 tiles of 2048 entries) into a scratch block over a grid, finishing each row block
  with the two small layers. Over the extended reals the order and grouping of a sum do not matter, a zero weight row
  contributes zero, and the changes of float format in the kernel are the identity; so both end at `Spec.logits` of the
  arguments. The claim is stated for tokens inside the vocabulary: a flat histogram position `row · width + token`
  names the same (row, entry) in both widths only then. The frames of the two kernels are the generated ones and the
  reference's frame is its generated run; the idealization rewrote nothing.
-/
import proofs.«422080_j65386582114769_3_alg».proof.Defs
import proofs.«422080_j65386582114769_3_alg».proof.Proof.Gen.Kernel
import proofs.«422080_j65386582114769_3_alg».proof.Proof.Gen.Kernel.Skeleton
import proofs.«422080_j65386582114769_3_alg».proof.Proof.Gen.Kernel.Launch
import proofs.«422080_j65386582114769_3_alg».proof.Proof.Gen.Kernel.Points
import proofs.«422080_j65386582114769_3_alg».proof.Proof.Gen.Kernel.Frame
import proofs.«422080_j65386582114769_3_alg».proof.Proof.Gen.KernelIdeal
import proofs.«422080_j65386582114769_3_alg».proof.Proof.Gen.KernelIdeal.Skeleton
import proofs.«422080_j65386582114769_3_alg».proof.Proof.Gen.KernelIdeal.Launch
import proofs.«422080_j65386582114769_3_alg».proof.Proof.Gen.KernelIdeal.Points
import proofs.«422080_j65386582114769_3_alg».proof.Proof.Gen.KernelIdeal.Frame
import proofs.«422080_j65386582114769_3_alg».proof.Proof.Gen.ReferenceIdeal
import proofs.«422080_j65386582114769_3_alg».proof.Proof.Gen.Pre_finite_inputs
import proofs.«422080_j65386582114769_3_alg».proof.Proof.Gen.KernelIdeal.Value
import proofs.«422080_j65386582114769_3_alg».proof.Proof.Gen.ReferenceIdeal.Run
import proofs.«422080_j65386582114769_3_alg».proof.Proof.Gen.ReferenceIdeal.Read
import proofs.«422080_j65386582114769_3_alg».proof.Proof.PreDecode
import proofs.«422080_j65386582114769_3_alg».proof.Proof.RefValue
import proofs.«422080_j65386582114769_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition every token is a vocabulary entry, so the kernel's result array ends at the logits of its
    arguments and the reference's result at the logits of arguments that agree with them. -/
theorem algebraic : Cert.algebraic_KernelIdeal_ReferenceIdeal := by
  intro m ρ m' ρ' hpre hagree
  have hX : ∀ (c : Dev Cert.KernelIdeal.nD) u, (Cert.KernelIdeal.Arrays.tokens m c u).toNat < 50257 :=
    fun c u => Cert.PreDecode.tokens_in_vocab _ _ _ _ _ _ _ (hpre c) u
  refine ⟨fun c => Cert.KernelIdeal.Result.result m c, Cert.KernelIdeal.Result.run m ρ hX, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2.1, (hagree c).2.2.2.2.2.2]
  exact Cert.RefValue.ref_eq_logits _ _ _ _ _ _ _ (hX c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
